-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x128 : Shape := ⟨3, ![4, 1, 128]⟩
abbrev S1x8192x3 : Shape := ⟨3, ![1, 8192, 3]⟩
abbrev S1x1x128 : Shape := ⟨3, ![1, 1, 128]⟩
abbrev S8192x3 : Shape := ⟨2, ![8192, 3]⟩
abbrev S3x8192 : Shape := ⟨2, ![3, 8192]⟩
abbrev S1x1 : Shape := ⟨2, ![1, 1]⟩
abbrev S1x8192 : Shape := ⟨2, ![1, 8192]⟩
abbrev S1x128x3 : Shape := ⟨3, ![1, 128, 3]⟩
abbrev S128x3 : Shape := ⟨2, ![128, 3]⟩
abbrev S128x8192 : Shape := ⟨2, ![128, 8192]⟩
abbrev S128x1 : Shape := ⟨2, ![128, 1]⟩
abbrev S128 : Shape := ⟨1, ![128]⟩
abbrev S1 : Shape := ⟨1, ![1]⟩
abbrev S8192 : Shape := ⟨1, ![8192]⟩
abbrev S1x128 : Shape := ⟨2, ![1, 128]⟩
abbrev S4x1x1 : Shape := ⟨3, ![4, 1, 1]⟩
abbrev S4 : Shape := ⟨1, ![4]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x128, .f32⟩
  | .hbm, ⟨3, _⟩ => ⟨S4x1x1, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x8192x3, .f32⟩
  | .local _ .vmem, ⟨1, _⟩ => ⟨S1x8192x3, .f32⟩
  | .local _ .vmem, ⟨2, _⟩ => ⟨S1x8192x3, .f32⟩
  | .local _ .vmem, ⟨3, _⟩ => ⟨S1x8192x3, .f32⟩
  | .local _ .vmem, ⟨4, _⟩ => ⟨S1x1x128, .f32⟩
  | .local _ .vmem, ⟨5, _⟩ => ⟨S1x1x128, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c64_i32 : BitVec 32 := 64#32
  let v5 : BitVec 32 := Scalar.addi c0_i32 c64_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v19 : BitVec 32 := Scalar.muli arg4 c128_i32
  v19
def k0_off1 (k0_t1 : Fin k0_t1_loop.trips) : Fin 3 → Nat :=
  let c0_10 : Index := 0#32
  let c0_i32 : BitVec 32 := 0#32
  let c1_i32 : BitVec 32 := 1#32
  let arg4 : BitVec 32 := Scf.iv c0_i32 c1_i32 k0_t1
  let c128_i32 : BitVec 32 := 128#32
  let v19 : BitVec 32 := Scalar.muli arg4 c128_i32
  let v20 : BitVec 32 := v19
  let v21 : Index := Scalar.indexCast v20
  let c0_11 : Index := 0#32
  ![0, v21.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  transposes_S8192x3_p1_0_S3x8192 : S8192x3.Transposes [1, 0] S3x8192
  h_S1x128x3 : 0 < S1x128x3.numel
  shapeCasts_S1x128x3_S128x3 : S1x128x3.ShapeCasts S128x3
  slices_S128x3_o0_0_S128x1 : S128x3.Slices ![0, 0] S128x1
  slices_S3x8192_o0_0_S1x8192 : S3x8192.Slices ![0, 0] S1x8192
  broadcasts_S128x1_S128x8192 : S128x1.Broadcasts S128x8192
  broadcasts_S1x8192_S128x8192 : S1x8192.Broadcasts S128x8192
  slices_S128x3_o0_1_S128x1 : S128x3.Slices ![0, 1] S128x1
  slices_S3x8192_o1_0_S1x8192 : S3x8192.Slices ![1, 0] S1x8192
  slices_S128x3_o0_2_S128x1 : S128x3.Slices ![0, 2] S128x1
  slices_S3x8192_o2_0_S1x8192 : S3x8192.Slices ![2, 0] S1x8192
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  reduces_S128x8192_S8192 : S128x8192.Reduces [0] S8192
  shapeCasts_S8192_S1x8192 : S8192.ShapeCasts S1x8192
  reduces_S1x8192_S1 : S1x8192.Reduces [1] S1
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x3.size a ≤ S1x8192x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S4x8192x3.size a
  hwx0_0 : ∀ i : grid0.Coords, EltTy.bits .f32 = 32 ∨ (Rect.block (s := S4x8192x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S4x8192x3.size a
  hwx0_1 : ∀ i : grid0.Coords, EltTy.bits .f32 = 32 ∨ (Rect.block (s := S4x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KTrip.lean ====
/-
  What the kernel body leaves in its output block, read off the body's run: the block is the closing
  arithmetic applied to the value the counted loop carries after its last trip, and the carried value obeys a
  plain recursion — trip `k` loads tile `k` of the first input block (rows `128 k … 128 k + 127`) and maps the
  carried pair through the two per-trip updates (the running sum of row minima, the running column minima),
  the second input block entering every trip whole.
-/
import proofs.«149682_j8117488190299_1_alg».proof.Proof.Gen.KernelIdeal.Frame
import Idealize.ShloMosaic.Lib.Pipeline.Value

set_option maxRecDepth 16384

noncomputable section

namespace Cert.KernelIdeal.KVal

open Idealize.ShloMosaic Idealize.ShloMosaic.TcCoe Idealize.ShloMosaic.Tactic
open Idealize.SL Idealize.SL.Sem
open Cert.KernelIdeal Cert.KernelIdeal.Gen

variable {F : FTy → Type} [FloatOps F]

/-- The loop runs 64 trips. -/
theorem trips_eq : k0_t1_loop.trips = 64 := by decide +kernel

/-- Tile `k` of a `[1, 8192, 3]` block: its rows `128 k … 128 k + 127`. -/
def tile (x0 : Vec F S1x8192x3 .f32) (k : Fin k0_t1_loop.trips) : Vec F S1x128x3 .f32 :=
  View.ld x0 (Rect.unit (k0_off1 k) S1x128x3.size (k0_off1_inb k))

/-- One trip: the carried pair through the two updates, over the second block and tile `k` of the first. -/
theorem tripR_eq (𝒱 : Variants) (c : Dev nD) (bd : Option 𝒱.V) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x128 .f32) (harg3 : arg3.IsWhole)
    (v0 : Vec F S1x8192x3 .f32) (x0 : Vec F S1x8192x3 .f32) (k : Fin k0_t1_loop.trips) (acc : FVec F S1x1 .f32 × FVec F S1x8192 .f32) :
    tripR_k0_t1 (F := F) 𝒱 c bd i arg1 harg1 arg2 harg2 arg3 harg3 v0 (harg1.unread x0) k acc
      = (k0_pay4 v0 acc.1 (tile x0 k), k0_pay5 v0 acc.2 (tile x0 k)) := by
  unfold tripR_k0_t1 trip_k0_t1
  dsimp only
  simp only [View.readAt_eq_ld, harg1.read_unread]
  rfl

/-- The carried pair after `k` trips: from the zero sum and the all-`+inf` minima, one update per trip. -/
def loopSt (x0 x1 : Vec F S1x8192x3 .f32) : ℕ → FVec F S1x1 .f32 × FVec F S1x8192 .f32
  | 0 => (k0_pay1, k0_pay2)
  | k + 1 =>
    if h : k < k0_t1_loop.trips then
      (k0_pay4 x1 (loopSt x0 x1 k).1 (tile x0 ⟨k, h⟩), k0_pay5 x1 (loopSt x0 x1 k).2 (tile x0 ⟨k, h⟩))
    else loopSt x0 x1 k

/-- The run's carried value before trip `k` is that recursion's. -/
theorem st_eq (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x128 .f32) (harg3 : arg3.IsWhole)
    (x0 x1 : Vec F S1x8192x3 .f32) (k : ℕ) :
    st_k0_t1 (F := F) Variants.none c none i arg1 harg1 arg2 harg2 arg3 harg3 x1 (harg1.unread x0) (k0_pay1, k0_pay2) k
      = loopSt x0 x1 k := by
  induction k with
  | zero => rfl
  | succ k ih =>
    rw [st_k0_t1.eq_2, loopSt]
    unfold st_k0_t1Step
    rw [ih]
    split
    · rw [tripR_eq]
    · rfl

theorem zeros3 : (![0, 0, 0] : Fin 3 → Nat) = fun _ => 0 := by
  funext a; fin_cases a <;> rfl

/-- The output block the body leaves: the closing arithmetic of the carried pair after the 64 trips. -/
theorem out_eq (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x128 .f32) (harg3 : arg3.IsWhole)
    (x0 x1 : Vec F S1x8192x3 .f32) :
    out0_A_2 c i arg1 harg1 arg2 harg2 arg3 harg3 x0 x1 = k0_pay6 (loopSt x0 x1 64).1 (loopSt x0 x1 64).2 := by
  unfold out0_A_2
  rw [View.read_writes_eq_canon _ _ _ (cover0_A_2 c i arg1 harg1 arg2 harg2 arg3 harg3 x0 x1)]
  unfold kernelRun0_A
  dsimp only
  rw [View.canon_unit_zero (S := S1x1x128) zeros3]
  simp only [View.readAt_eq_ld, harg2.read_unread, View.ld_unit_zero (S := S1x8192x3) zeros3]
  rw [st_eq]
  rfl

end Cert.KernelIdeal.KVal

end
-- ==== Proof.Chamfer.lean ====
/-
  The mathematics of the Chamfer distance, on the extended reals, with no program in sight.

  For two clouds of 8192 points in 3-space, `P` and `Q`, and a squared-distance function `D m n` between
  point `m` of `P` and point `n` of `Q`, the Chamfer distance of one batch is
      (Σ_m min_n D m n) / K + (Σ_n min_m D m n) / K,
  and the result is the mean over four batches. Two squared distances enter: the direct one,
  `Σ_d (p_d - q_d)²`, and the expanded one, `Σ p_d² + Σ q_d² - 2 Σ p_d q_d`; they agree on real points
  (the binomial formula), which is where finiteness of the inputs is used. The row sums and the column
  minima may be accumulated tile by tile over 64 tiles of 128 rows: the sum is a sum over a partition,
  the minimum a minimum over a cover, and neither needs finiteness.
-/
import Idealize.ShloMosaic.PureOps.Ideal
import Mathlib.Data.Finset.Fold
import Mathlib.Algebra.BigOperators.Fin
import Mathlib.Algebra.BigOperators.Intervals

noncomputable section

namespace Cert.Chamfer

open Idealize.ShloMosaic

/-! ## Minimum over a finite type, from the top element -/

/-- The minimum of `f` over a finite index type, `⊤` when the type is empty. -/
def minOver {ι : Type} [Fintype ι] (f : ι → EReal) : EReal := Finset.univ.fold min ⊤ f

theorem minOver_le {ι : Type} [Fintype ι] (f : ι → EReal) (i : ι) : minOver f ≤ f i :=
  (Finset.fold_min_le _).mpr (Or.inr ⟨i, Finset.mem_univ _, le_rfl⟩)

theorem le_minOver {ι : Type} [Fintype ι] (f : ι → EReal) (c : EReal) (h : ∀ i, c ≤ f i) : c ≤ minOver f :=
  (Finset.le_fold_min _).mpr ⟨le_top, fun i _ => h i⟩

/-! ## The two squared distances -/

/-- The direct squared distance, summed coordinate by coordinate from zero. -/
def sqK (p q : Fin 3 → EReal) : EReal :=
  0 + (p 0 - q 0) * (p 0 - q 0) + (p 1 - q 1) * (p 1 - q 1) + (p 2 - q 2) * (p 2 - q 2)

/-- The expanded squared distance: the two squared norms minus twice the inner product. -/
def sqR (p q : Fin 3 → EReal) : EReal :=
  (0 + ∑ d, p d * p d) + (0 + ∑ d, q d * q d) - 2 * ∑ d, p d * q d

/-- On real points the two agree: `(a - b)² = a² + b² - 2ab`, three times. -/
theorem sqK_eq_sqR (p q : Fin 3 → EReal) (hp : ∀ d, ∃ r : ℝ, p d = r) (hq : ∀ d, ∃ r : ℝ, q d = r) :
    sqK p q = sqR p q := by
  choose a ha using hp
  choose b hb using hq
  have h2 : (2 : EReal) = ((2 : ℝ) : EReal) := rfl
  simp only [sqK, sqR, Fin.sum_univ_three, ha, hb, h2]
  have e : (0 + (a 0 - b 0) * (a 0 - b 0) + (a 1 - b 1) * (a 1 - b 1) + (a 2 - b 2) * (a 2 - b 2) : ℝ)
      = (0 + (a 0 * a 0 + a 1 * a 1 + a 2 * a 2)) + (0 + (b 0 * b 0 + b 1 * b 1 + b 2 * b 2))
        - 2 * (a 0 * b 0 + a 1 * b 1 + a 2 * b 2) := by ring
  exact_mod_cast congrArg (fun x : ℝ => (x : EReal)) e

/-! ## One batch, and the mean over the batches -/

/-- The Chamfer distance of one batch for the squared distances `D`, the divisor `K` left as it is spelt. -/
def chamferB (K : EReal) (D : Fin 8192 → Fin 8192 → EReal) : EReal :=
  Ideal.div (∑ m, minOver (D m)) K + Ideal.div (∑ n, minOver (fun m => D m n)) K

/-- The result: the batches' distances summed and divided by `K4`, for point clouds `P`, `Q` and a
    squared distance `sq` between points. -/
def result (K K4 : EReal) (sq : (Fin 3 → EReal) → (Fin 3 → EReal) → EReal)
    (P Q : Fin 4 → Fin 8192 → Fin 3 → EReal) : EReal :=
  Ideal.div (∑ b, chamferB K (fun m n => sq (P b m) (Q b n))) K4

/-- On real clouds the result is the same for the direct and the expanded squared distance. -/
theorem result_sqK_eq_sqR (K K4 : EReal) (P Q : Fin 4 → Fin 8192 → Fin 3 → EReal)
    (hP : ∀ b m d, ∃ r : ℝ, P b m d = r) (hQ : ∀ b n d, ∃ r : ℝ, Q b n d = r) :
    result K K4 sqK P Q = result K K4 sqR P Q := by
  unfold result
  refine congrArg (Ideal.div · K4) (Finset.sum_congr rfl fun b _ => ?_)
  refine congrArg (chamferB K) (funext fun m => funext fun n => ?_)
  exact sqK_eq_sqR _ _ (hP b m) (hQ b n)

/-! ## Tile by tile: 64 tiles of 128 rows -/

/-- Row `r` of tile `j`. -/
def tileRow (j : ℕ) (r : Fin 128) : Fin 8192 := ⟨(128 * j + r.val) % 8192, Nat.mod_lt _ (by norm_num)⟩

theorem tileRow_val {j : ℕ} (hj : j < 64) (r : Fin 128) : (tileRow j r).val = 128 * j + r.val := by
  unfold tileRow
  have := r.isLt
  exact Nat.mod_eq_of_lt (by omega)

/-- The running sum of the row minima after `j` tiles. -/
def rowAcc (D : Fin 8192 → Fin 8192 → EReal) : ℕ → EReal
  | 0 => 0
  | j + 1 => rowAcc D j + ∑ r : Fin 128, minOver (fun n => D (tileRow j r) n)

/-- The running column minima after `j` tiles. -/
def colAcc (D : Fin 8192 → Fin 8192 → EReal) : ℕ → Fin 8192 → EReal
  | 0 => fun _ => ⊤
  | j + 1 => fun n => min (colAcc D j n) (minOver fun r : Fin 128 => D (tileRow j r) n)

/-- The tiles partition the rows: a sum over all rows is the sum over the tiles of the sums over their rows. -/
theorem sum_tiles (f : Fin 8192 → EReal) :
    ∑ m, f m = ∑ j ∈ Finset.range 64, ∑ r : Fin 128, f (tileRow j r) := by
  rw [Finset.sum_range (fun j => ∑ r : Fin 128, f (tileRow j r))]
  rw [← Finset.sum_product' (Finset.univ : Finset (Fin 64)) (Finset.univ : Finset (Fin 128)) (fun j r => f (tileRow j.val r))]
  rw [Finset.univ_product_univ]
  refine (Fintype.sum_equiv (finProdFinEquiv : Fin 64 × Fin 128 ≃ Fin 8192) (fun jr => f (tileRow jr.1.val jr.2)) f
    fun jr => congrArg f (Fin.ext ?_)).symm
  rw [tileRow_val jr.1.isLt]
  show 128 * jr.1.val + jr.2.val = jr.2.val + 128 * jr.1.val
  exact Nat.add_comm _ _

theorem rowAcc_eq (D : Fin 8192 → Fin 8192 → EReal) (j : ℕ) :
    rowAcc D j = ∑ i ∈ Finset.range j, ∑ r : Fin 128, minOver (fun n => D (tileRow i r) n) := by
  induction j with
  | zero => simp [rowAcc]
  | succ j ih => rw [rowAcc, ih, Finset.sum_range_succ]

/-- After all 64 tiles the running sum is the sum of every row's minimum. -/
theorem rowAcc_64 (D : Fin 8192 → Fin 8192 → EReal) : rowAcc D 64 = ∑ m, minOver (D m) := by
  rw [rowAcc_eq, sum_tiles (fun m => minOver (D m))]

theorem colAcc_le (D : Fin 8192 → Fin 8192 → EReal) (n : Fin 8192) (i : ℕ) (r : Fin 128) :
    ∀ j, i < j → colAcc D j n ≤ D (tileRow i r) n := by
  intro j
  induction j with
  | zero => intro h; exact absurd h (Nat.not_lt_zero _)
  | succ j ih =>
    intro h
    rw [colAcc]
    rcases Nat.lt_succ_iff_lt_or_eq.mp h with h' | rfl
    · exact (min_le_left _ _).trans (ih h')
    · exact (min_le_right _ _).trans (minOver_le (fun r : Fin 128 => D (tileRow i r) n) r)

theorem le_colAcc (D : Fin 8192 → Fin 8192 → EReal) (n : Fin 8192) (c : EReal) (h : ∀ m, c ≤ D m n) :
    ∀ j, c ≤ colAcc D j n := by
  intro j
  induction j with
  | zero => exact le_top
  | succ j ih => rw [colAcc]; exact le_min ih (le_minOver _ _ fun r => h _)

/-- After all 64 tiles the running column minima are the minima over every row. -/
theorem colAcc_64 (D : Fin 8192 → Fin 8192 → EReal) (n : Fin 8192) :
    colAcc D 64 n = minOver (fun m => D m n) := by
  refine le_antisymm (le_minOver _ _ fun m => ?_) (le_colAcc D n _ (fun m => minOver_le (fun m => D m n) m) 64)
  have hm := m.isLt
  have e : m = tileRow (m.val / 128) ⟨m.val % 128, Nat.mod_lt _ (by norm_num)⟩ := by
    apply Fin.ext
    rw [tileRow_val (by omega)]
    exact (Nat.div_add_mod _ 128).symm
  rw [e]
  exact colAcc_le D n _ _ 64 (by omega)

end Cert.Chamfer

end
-- ==== Proof.Consts.lean ====
/-
  The float constants this certificate evaluates, as the extended reals their bit patterns denote:
  `+0.0` is `0`, `2.0` is the real `2`, and the pattern of `+inf` is the top element. (The divisors
  `8192.0` and `4.0` appear as the same words on both sides and are never evaluated.)
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- The pattern of `+inf` denotes the top element. -/
theorem ofBits_top : Ideal.ofBits .f32 0x7F800000#32 = ⊤ := by
  simp [Ideal.ofBits, Ideal.ieee]

end Cert.Consts

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPay.lean ====
/-
  The kernel's per-trip arithmetic, read index by index on the extended reals.

  One trip holds a tile of 128 points `p_r` of the first cloud and all 8192 points `q_n` of the second. Its
  `[128, 8192]` table is the direct squared distance `Σ_d (p_{r,d} - q_{n,d})²` (`pay3_apply`): each coordinate
  column of the tile is broadcast along the table's rows, each coordinate row of the transposed second cloud
  along its columns. The running sum gains the sum over the tile's rows of the row minima (`pay4_apply`), the
  running column minima are lowered by the tile's column minima (`pay5_apply`); both start from the zero sum
  and the all-`+inf` minima (`pay1_apply`, `pay2_apply`). The closing arithmetic divides the sum of row
  minima and the sum of the column minima by the same constant and adds them, into every lane of the output
  block (`pay6_apply`).
-/
import proofs.«149682_j8117488190299_1_alg».proof.Proof.Gen.KernelIdeal.Skeleton
import proofs.«149682_j8117488190299_1_alg».proof.Proof.Chamfer
import proofs.«149682_j8117488190299_1_alg».proof.Proof.Consts
import proofs.«149682_j8117488190299_1_alg».proof.Proof.LibColumn
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.KPay

open Idealize.ShloMosaic Idealize.ShloMosaic.TcCoe Idealize.ShloMosaic.ValueIdx
open Cert.KernelIdeal Cert.KernelIdeal.Gen

/-! ## Layout chains read at coordinates

Each chain below is a composite of layout operations over VARIABLES, read at one index written by coordinates. -/

section Layout

variable {α : Type}

/-- A coordinate column of a tile, broadcast along the rows of a table. The `[1, a, c]` tile is cast to `[a, c]`, its
    column `o` is cut out as an `[a, 1]` column and broadcast to `[a, b]`: at `(r, n)` that is the tile at `(0, r, o)`,
    whatever `n`. -/
theorem colBcast_apply {a b c : ℕ} (o : ℕ) (tl : (⟨3, ![1, a, c]⟩ : Shape).Idx → α)
    (h1 : (⟨3, ![1, a, c]⟩ : Shape).ShapeCasts ⟨2, ![a, c]⟩)
    (h2 : (⟨2, ![a, c]⟩ : Shape).Slices ![0, o] ⟨2, ![a, 1]⟩)
    (h3 : (⟨2, ![a, 1]⟩ : Shape).Broadcasts ⟨2, ![a, b]⟩) (r : Fin a) (n : Fin b) (k : Fin c) (hk : k.val = o) :
    broadcastTo ⟨2, ![a, b]⟩ (extractStridedSlice ⟨2, ![a, 1]⟩ ![0, o] (shapeCast ⟨2, ![a, c]⟩ tl h1) h2) h3 (ix2 r n)
      = tl (ix3 (0 : Fin 1) r k) :=
  (Cert.LibColumn.broadcastTo_a1_ab_apply _ h3 r n).trans
    ((slice2_axis1_apply o _ h2 r (0 : Fin 1) k hk).trans (shapeCast_1ab_ab_apply tl h1 r k))

/-- A coordinate row of the transposed cloud, broadcast along the columns of a table. The `[1, b, c]` cloud is cast to
    `[b, c]` and transposed to `[c, b]`, its row `o` is cut out as a `[1, b]` row and broadcast to `[a, b]`: at `(r, n)`
    that is the cloud at `(0, n, o)`, whatever `r`. -/
theorem rowBcast_apply {a b c : ℕ} (o : ℕ) (x1 : (⟨3, ![1, b, c]⟩ : Shape).Idx → α)
    (h1 : (⟨3, ![1, b, c]⟩ : Shape).ShapeCasts ⟨2, ![b, c]⟩)
    (h2 : (⟨2, ![b, c]⟩ : Shape).Transposes [1, 0] ⟨2, ![c, b]⟩)
    (h3 : (⟨2, ![c, b]⟩ : Shape).Slices ![o, 0] ⟨2, ![1, b]⟩)
    (h4 : (⟨2, ![1, b]⟩ : Shape).Broadcasts ⟨2, ![a, b]⟩) (r : Fin a) (n : Fin b) (k : Fin c) (hk : k.val = o) :
    broadcastTo ⟨2, ![a, b]⟩
        (extractStridedSlice ⟨2, ![1, b]⟩ ![o, 0] (transpose ⟨2, ![c, b]⟩ [1, 0] (shapeCast ⟨2, ![b, c]⟩ x1 h1) h2) h3) h4 (ix2 r n)
      = x1 (ix3 (0 : Fin 1) n k) :=
  (broadcastTo_1b_ab_apply _ h4 r n).trans
    ((slice2_axis0_apply o _ h3 (0 : Fin 1) n k hk).trans
      ((transpose_ix2_apply _ h2 k n).trans (shapeCast_1ab_ab_apply x1 h1 n k)))

end Layout

/-! ## Reductions over one axis of a matrix, read at coordinates -/

section Reductions

/-- Along the rows: the index over column `t` whose row coordinate is `k` is `(k, t)`. -/
theorem lift_axis0 {m n : ℕ} (h : (⟨2, ![m, n]⟩ : Shape).Reduces [0] ⟨1, ![n]⟩) (t : Fin n)
    (k : Fin ((⟨2, ![m, n]⟩ : Shape).size 0)) : h.lift (ix1 t) k = ix2 (⟨k.val, k.isLt⟩ : Fin m) t := by
  funext c
  apply Fin.ext
  match c with
  | ⟨0, _⟩ => rfl
  | ⟨1, _⟩ => rfl

/-- Along the columns: the index over row `r` whose column coordinate is `k` is `(r, k)`. -/
theorem lift_axis1 {m n : ℕ} (h : (⟨2, ![m, n]⟩ : Shape).Reduces [1] ⟨1, ![m]⟩) (r : Fin m)
    (k : Fin ((⟨2, ![m, n]⟩ : Shape).size 1)) : h.lift (ix1 r) k = ix2 r (⟨k.val, k.isLt⟩ : Fin n) := by
  funext c
  apply Fin.ext
  match c with
  | ⟨0, _⟩ => rfl
  | ⟨1, _⟩ => rfl

/-- A sum down the rows of a matrix, at column `t`, is the sum over the rows `r` of the entry `(r, t)`. -/
theorem sumAxis0_apply {m n : ℕ} (src : FVec Ideal ⟨2, ![m, n]⟩ .f32) (acc : BitVec FTy.f32.bits)
    (h : (⟨2, ![m, n]⟩ : Shape).Reduces [0] ⟨1, ![n]⟩) (hφ : FKind.Formats .f32) (hacc : acc = FKind.add.neutral .f32 hφ)
    (t : Fin n) : multiReduction .add [0] ⟨1, ![n]⟩ src acc h hφ hacc (ix1 t) = ∑ r : Fin m, src (ix2 r t) :=
  (Ideal.multiReduction_add_single src acc h hφ hacc (ix1 t)).trans
    (Finset.sum_congr rfl fun k _ => congrArg src (lift_axis0 h t k))

/-- A sum along the columns of a matrix, at row `r`, is the sum over the columns `k` of the entry `(r, k)`. -/
theorem sumAxis1_apply {m n : ℕ} (src : FVec Ideal ⟨2, ![m, n]⟩ .f32) (acc : BitVec FTy.f32.bits)
    (h : (⟨2, ![m, n]⟩ : Shape).Reduces [1] ⟨1, ![m]⟩) (hφ : FKind.Formats .f32) (hacc : acc = FKind.add.neutral .f32 hφ)
    (r : Fin m) : multiReduction .add [1] ⟨1, ![m]⟩ src acc h hφ hacc (ix1 r) = ∑ k : Fin n, src (ix2 r k) :=
  (Ideal.multiReduction_add_single src acc h hφ hacc (ix1 r)).trans
    (Finset.sum_congr rfl fun k _ => congrArg src (lift_axis1 h r k))

/-- A minimum along the columns of a matrix from `+inf`, at row `r`, is the minimum over the columns of row `r`. -/
theorem minAxis1_apply {m n : ℕ} (src : FVec Ideal ⟨2, ![m, n]⟩ .f32)
    (h : (⟨2, ![m, n]⟩ : Shape).Reduces [1] ⟨1, ![m]⟩) (hφ : FKind.Formats .f32)
    (hacc : (0x7F800000#32 : BitVec FTy.f32.bits) = FKind.minimumf.neutral .f32 hφ) (r : Fin m) :
    multiReduction .minimumf [1] ⟨1, ![m]⟩ src 0x7F800000#32 h hφ hacc (ix1 r)
      = Cert.Chamfer.minOver (fun k : Fin n => src (ix2 r k)) := by
  rw [multiReduction_minimumf_eq_fold, h.fold_filter_drop_single, Ideal.ofBits_def, Cert.Consts.ofBits_top]
  have hf : (src ∘ h.lift (ix1 r)) = fun k : Fin n => src (ix2 r k) := funext fun k => congrArg src (lift_axis1 h r k)
  exact congrArg (fun f => Finset.fold min (⊤ : EReal) f (Finset.univ : Finset (Fin n))) hf

/-- A minimum down the rows of a matrix from `+inf`, at column `t`, is the minimum over the rows of column `t`. -/
theorem minAxis0_apply {m n : ℕ} (src : FVec Ideal ⟨2, ![m, n]⟩ .f32)
    (h : (⟨2, ![m, n]⟩ : Shape).Reduces [0] ⟨1, ![n]⟩) (hφ : FKind.Formats .f32)
    (hacc : (0x7F800000#32 : BitVec FTy.f32.bits) = FKind.minimumf.neutral .f32 hφ) (t : Fin n) :
    multiReduction .minimumf [0] ⟨1, ![n]⟩ src 0x7F800000#32 h hφ hacc (ix1 t)
      = Cert.Chamfer.minOver (fun k : Fin m => src (ix2 k t)) := by
  rw [multiReduction_minimumf_eq_fold, h.fold_filter_drop_single, Ideal.ofBits_def, Cert.Consts.ofBits_top]
  have hf : (src ∘ h.lift (ix1 t)) = fun k : Fin m => src (ix2 k t) := funext fun k => congrArg src (lift_axis0 h t k)
  exact congrArg (fun f => Finset.fold min (⊤ : EReal) f (Finset.univ : Finset (Fin m))) hf

end Reductions

/-- The trip's table at row `r`, column `n`: the direct squared distance between point `r` of the tile and
    point `n` of the second cloud. -/
theorem pay3_apply (x1 : Vec Ideal S1x8192x3 .f32) (tl : Vec Ideal S1x128x3 .f32) (r : Fin 128) (n : Fin 8192) :
    k0_pay3 (F := Ideal) x1 tl (ix2 r n)
      = Cert.Chamfer.sqK (fun d => tl (ix3 (0 : Fin 1) r d)) (fun d => x1 (ix3 (0 : Fin 1) n d)) := by
  unfold k0_pay3
  dsimp only
  -- the sums, products and differences are entrywise, and the zero table is the zero at every entry
  simp only [addf_apply, mulf_apply, subf_apply, broadcast_apply]
  -- the three coordinate columns of the tile and the three coordinate rows of the transposed cloud
  rw [colBcast_apply 0 tl _ _ _ r n (0 : Fin 3) rfl, colBcast_apply 1 tl _ _ _ r n (1 : Fin 3) rfl,
    colBcast_apply 2 tl _ _ _ r n (2 : Fin 3) rfl, rowBcast_apply 0 x1 _ _ _ _ r n (0 : Fin 3) rfl,
    rowBcast_apply 1 x1 _ _ _ _ r n (1 : Fin 3) rfl, rowBcast_apply 2 x1 _ _ _ _ r n (2 : Fin 3) rfl]
  -- the zero splat's pattern denotes zero; what is left is the direct squared distance, term for term
  rw [Ideal.ofBits_def, Cert.Consts.ofBits_zero]
  rfl

/-- The running sum after a trip: what it was plus the tile's row minima summed. -/
theorem pay4_apply (x1 : Vec Ideal S1x8192x3 .f32) (acc : FVec Ideal S1x1 .f32) (tl : Vec Ideal S1x128x3 .f32) :
    k0_pay4 (F := Ideal) x1 acc tl (ix2 (0 : Fin 1) (0 : Fin 1))
      = acc (ix2 (0 : Fin 1) (0 : Fin 1))
        + ∑ r : Fin 128, Cert.Chamfer.minOver (fun n : Fin 8192 => k0_pay3 (F := Ideal) x1 tl (ix2 r n)) := by
  unfold k0_pay4
  dsimp only
  rw [addf_apply]
  refine congrArg (fun z => acc (ix2 (0 : Fin 1) (0 : Fin 1)) + z) ?_
  -- the [1] sum cast to [1, 1], read at (0, 0): the sum down the [128, 1] column of row minima
  refine (shapeCast_a_1a_apply _ _ (0 : Fin 1) (0 : Fin 1)).trans ?_
  refine (sumAxis0_apply _ _ _ _ _ (0 : Fin 1)).trans ?_
  refine Finset.sum_congr rfl fun r _ => ?_
  -- row r of the column is entry r of the row minima
  refine (Cert.LibColumn.shapeCast_a_a1_apply _ _ r (0 : Fin 1)).trans ?_
  exact minAxis1_apply _ _ _ _ r

/-- The running column minima after a trip: each lowered by the tile's minimum in that column. -/
theorem pay5_apply (x1 : Vec Ideal S1x8192x3 .f32) (acc : FVec Ideal S1x8192 .f32) (tl : Vec Ideal S1x128x3 .f32) (n : Fin 8192) :
    k0_pay5 (F := Ideal) x1 acc tl (ix2 (0 : Fin 1) n)
      = min (acc (ix2 (0 : Fin 1) n)) (Cert.Chamfer.minOver (fun r : Fin 128 => k0_pay3 (F := Ideal) x1 tl (ix2 r n))) := by
  unfold k0_pay5
  dsimp only
  rw [minimumf_apply]
  refine congrArg (fun z => min (acc (ix2 (0 : Fin 1) n)) z) ?_
  -- the [8192] column minima cast to one row, read at (0, n): entry n
  refine (shapeCast_a_1a_apply _ _ (0 : Fin 1) n).trans ?_
  exact minAxis0_apply _ _ _ _ n

/-- The closing arithmetic, at every index of the output block. -/
theorem pay6_apply (a : FVec Ideal S1x1 .f32) (b : FVec Ideal S1x8192 .f32) (y : S1x1x128.Idx) :
    k0_pay6 (F := Ideal) a b y
      = Ideal.div (a (ix2 (0 : Fin 1) (0 : Fin 1))) (Ideal.ofBits .f32 0x46000000#32)
        + Ideal.div (∑ n : Fin 8192, b (ix2 (0 : Fin 1) n)) (Ideal.ofBits .f32 0x46000000#32) := by
  obtain ⟨u, i, l, rfl⟩ : ∃ (u : Fin 1) (i : Fin 1) (l : Fin 128), y = ix3 u i l := ⟨y 0, y 1, y 2, eq_ix3 y⟩
  have hi : i = 0 := Subsingleton.elim _ _
  subst hi
  unfold k0_pay6
  dsimp only
  -- the [1, 128] row with a unit axis put in front, then the [1, 1] value broadcast along the lanes
  refine (shapeCast_ab_1ab_apply _ _ u (0 : Fin 1) l).trans ?_
  refine (Cert.LibColumn.broadcastTo_a1_ab_apply _ _ (0 : Fin 1) l).trans ?_
  rw [shapeCast_self, addf_apply, divf_apply, divf_apply, broadcast_apply, Ideal.ofBits_def]
  refine congrArg (fun z => Ideal.div (a (ix2 (0 : Fin 1) (0 : Fin 1))) (Ideal.ofBits .f32 0x46000000#32)
    + Ideal.div z (Ideal.ofBits .f32 0x46000000#32)) ?_
  -- the [1] sum cast to [1, 1], read at (0, 0): the sum along the one row of the column minima
  refine (shapeCast_a_1a_apply _ _ (0 : Fin 1) (0 : Fin 1)).trans ?_
  exact sumAxis1_apply _ _ _ _ _ (0 : Fin 1)

/-- The sum starts at zero. -/
theorem pay1_apply : k0_pay1 (F := Ideal) (ix2 (0 : Fin 1) (0 : Fin 1)) = 0 := by
  unfold k0_pay1
  rw [broadcast_apply, Ideal.ofBits_def]
  exact Cert.Consts.ofBits_zero

/-- The column minima start at `+inf`. -/
theorem pay2_apply (n : Fin 8192) : k0_pay2 (F := Ideal) (ix2 (0 : Fin 1) n) = ⊤ := by
  unfold k0_pay2
  rw [broadcast_apply, Ideal.ofBits_def]
  exact Cert.Consts.ofBits_top

end Cert.KernelIdeal.KPay

end
-- ==== Proof.KLoop.lean ====
/-
  The counted loop's carried pair, on the extended reals, is the tile-by-tile accumulation of the Chamfer
  sums: with `D m n` the direct squared distance between point `m` of the first block and point `n` of the
  second, after `j` trips the carried sum is the sum over the first `j` tiles of their rows' minima over `n`,
  and the carried row of minima holds, at `n`, the minimum over the first `j` tiles' rows of `D · n`. After the
  64 trips these are the sum over all rows and the minima over all rows, and the closing arithmetic makes the
  output block, at every lane, the Chamfer distance of the batch.
-/
import proofs.«149682_j8117488190299_1_alg».proof.Proof.KTrip
import proofs.«149682_j8117488190299_1_alg».proof.Proof.KPay

set_option maxRecDepth 16384

noncomputable section

namespace Cert.KernelIdeal.KLoop

open Idealize.ShloMosaic Idealize.ShloMosaic.TcCoe Idealize.ShloMosaic.ValueIdx
open Cert.KernelIdeal Cert.KernelIdeal.Gen Cert.KernelIdeal.KVal Cert.KernelIdeal.KPay Cert.Chamfer

/-- The direct squared distances between the points of two `[1, 8192, 3]` blocks. -/
def distB (x0 x1 : Vec Ideal S1x8192x3 .f32) : Fin 8192 → Fin 8192 → EReal :=
  fun m n => sqK (fun d => x0 (ix3 (0 : Fin 1) m d)) (fun d => x1 (ix3 (0 : Fin 1) n d))

/-- Row `r` of tile `k` is row `128 k + r` of the block. -/
theorem tile_apply (x0 : Vec Ideal S1x8192x3 .f32) (k : Fin k0_t1_loop.trips) (r : Fin 128) (d : Fin 3) :
    tile x0 k (ix3 (0 : Fin 1) r d) = x0 (ix3 (0 : Fin 1) (tileRow k.val r) d) := by
  have hk : k.val < 64 := Nat.lt_of_lt_of_le k.isLt (le_of_eq trips_eq)
  have e := k0_off1_eq k
  unfold tile
  show x0 _ = x0 _
  refine congrArg x0 (funext fun a => Fin.ext ?_)
  match a with
  | ⟨0, _⟩ => show (k0_off1 k) 0 + 1 * 0 = 0; rw [e]; rfl
  | ⟨1, _⟩ =>
    show (k0_off1 k) 1 + 1 * r.val = (tileRow k.val r).val
    rw [e, tileRow_val hk]
    show 128 * k.val + 1 * r.val = 128 * k.val + r.val
    rw [Nat.one_mul]
  | ⟨2, _⟩ => show (k0_off1 k) 2 + 1 * d.val = d.val; rw [e]; show 0 + 1 * d.val = d.val; omega

/-- The carried pair after `j` trips: the running sum of row minima and the running column minima. -/
theorem loopSt_apply (x0 x1 : Vec Ideal S1x8192x3 .f32) (j : ℕ) (hj : j ≤ 64) :
    (loopSt x0 x1 j).1 (ix2 (0 : Fin 1) (0 : Fin 1)) = rowAcc (distB x0 x1) j
      ∧ ∀ n : Fin 8192, (loopSt x0 x1 j).2 (ix2 (0 : Fin 1) n) = colAcc (distB x0 x1) j n := by
  induction j with
  | zero => exact ⟨pay1_apply, fun n => pay2_apply n⟩
  | succ k ih =>
    obtain ⟨ih1, ih2⟩ := ih (by omega)
    have hlt : k < k0_t1_loop.trips := by rw [trips_eq]; omega
    have hD : ∀ (r : Fin 128) (n : Fin 8192),
        k0_pay3 (F := Ideal) x1 (tile x0 ⟨k, hlt⟩) (ix2 r n) = distB x0 x1 (tileRow k r) n := by
      intro r n
      rw [pay3_apply]
      unfold distB
      exact congrArg (fun p => sqK p _) (funext fun d => tile_apply x0 ⟨k, hlt⟩ r d)
    rw [loopSt, dif_pos hlt]
    constructor
    · show k0_pay4 (F := Ideal) x1 (loopSt x0 x1 k).1 (tile x0 ⟨k, hlt⟩) (ix2 (0 : Fin 1) (0 : Fin 1)) = _
      rw [pay4_apply, ih1, rowAcc]
      simp only [hD]
    · intro n
      show k0_pay5 (F := Ideal) x1 (loopSt x0 x1 k).2 (tile x0 ⟨k, hlt⟩) (ix2 (0 : Fin 1) n) = _
      rw [pay5_apply, ih2 n, colAcc]
      simp only [hD]

/-- The output block the body leaves holds, at every index, the Chamfer distance of the two blocks. -/
theorem out_apply (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x128 .f32) (harg3 : arg3.IsWhole)
    (x0 x1 : Vec Ideal S1x8192x3 .f32) (y : S1x1x128.Idx) :
    out0_A_2 (F := Ideal) c i arg1 harg1 arg2 harg2 arg3 harg3 x0 x1 y
      = chamferB (Ideal.ofBits .f32 0x46000000#32) (distB x0 x1) := by
  obtain ⟨h1, h2⟩ := loopSt_apply x0 x1 64 le_rfl
  rw [out_eq, pay6_apply, h1, rowAcc_64]
  simp only [h2, colAcc_64]
  rfl

end Cert.KernelIdeal.KLoop

end
-- ==== Proof.KArray.lean ====
/-
  From the blocks to the arrays, and the lines after the region.

  The region runs over four grid points, one batch each: at point `b` it reads batch `b` of each input
  whole and writes block `b` of a `[4, 1, 128]` array, every lane of which is the Chamfer distance of that
  batch's two clouds. The four blocks tile the array, so after the run the array holds, at `(b, 0, l)`, the
  distance of batch `b`. The lines after the region take lane `0` of each batch, sum the four from zero and
  divide by the constant `4.0`: the mean of the batches' distances.
-/
import proofs.«149682_j8117488190299_1_alg».proof.Proof.KLoop
import Idealize.ShloMosaic.Lib.StableHlo.Run
import Idealize.ShloMosaic.Lib.ValueIdxRank1

set_option maxRecDepth 16384

noncomputable section

namespace Cert.KernelIdeal.KArray

open Idealize.ShloMosaic Idealize.ShloMosaic.TcCoe Idealize.ShloMosaic.ValueIdx
open Idealize.SL Idealize.SL.Sem
open Cert.KernelIdeal Cert.KernelIdeal.Gen Cert.KernelIdeal.KVal Cert.KernelIdeal.KPay Cert.KernelIdeal.KLoop Cert.Chamfer

variable (m : (ℓ : Loc nD τ sig) → Buf (Elt Ideal) ℓ) (ρ : Dev nD → PrngReg)

/-- A `[4, 8192, 3]` array as four clouds of 8192 points. -/
def cloud (X : S4x8192x3.Idx → EReal) : Fin 4 → Fin 8192 → Fin 3 → EReal := fun b p d => X (ix3 b p d)

/-- What the region leaves in its output array: at `(b, 0, l)` the Chamfer distance of batch `b`. -/
def outArr (X Y : S4x8192x3.Idx → EReal) : S4x1x128.Idx → EReal :=
  fun i => chamferB (Ideal.ofBits .f32 0x46000000#32) (fun p n => sqK (cloud X (i 0) p) (cloud Y (i 0) n))

/-- The printed index maps, decided over the grid: at every point the two inputs' block index along the batch
    axis is the output's, below 4, and every other block index is zero. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 4 ∧ win0_2.index t (1 : Fin 3) = 0 ∧ win0_2.index t (2 : Fin 3) = 0 :=
  (by decide +kernel : ∀ t : Fin grid0.N, _)

/-- Every batch is some point's. -/
theorem idx_onto : ∀ q : Fin 4, ∃ t : Fin cfg0.N, win0_2.index t (0 : Fin 3) = q.val :=
  (by decide +kernel : ∀ q : Fin 4, ∃ t : Fin grid0.N, win0_2.index t (0 : Fin 3) = q.val)

/-- The batch of point `t`. -/
def batchOf (t : Fin cfg0.N) : Fin 4 := ⟨win0_2.index t (0 : Fin 3), (idx_facts t).2.2.2.2.2.2.1⟩

/-- The first input's block at point `t` is batch `t` of the first array. -/
theorem iblk0_apply (c : Dev nD) (t : Fin cfg0.N) (p : Fin 8192) (d : Fin 3) :
    (iblk m c 0 t : Vec Ideal S1x8192x3 .f32) (ix3 (0 : Fin 1) p d) = V m c main_arg0 (ix3 (batchOf t) p d) := by
  obtain ⟨e0, e1, e2, -⟩ := idx_facts t
  unfold iblk
  show V m c main_arg0 (((cfg0.win 0).blk t).view.emb (ix3 (0 : Fin 1) p d)) = V m c main_arg0 (ix3 (batchOf t) p d)
  refine congrArg (V m c main_arg0) (funext fun a => Fin.ext ?_)
  match a with
  | ⟨0, _⟩ => show win0_0.index t (0 : Fin 3) * 1 + 1 * 0 = win0_2.index t (0 : Fin 3); omega
  | ⟨1, _⟩ => show win0_0.index t (1 : Fin 3) * 8192 + 1 * p.val = p.val; omega
  | ⟨2, _⟩ => show win0_0.index t (2 : Fin 3) * 3 + 1 * d.val = d.val; omega

/-- The second input's block at point `t` is batch `t` of the second array. -/
theorem iblk1_apply (c : Dev nD) (t : Fin cfg0.N) (p : Fin 8192) (d : Fin 3) :
    (iblk m c 1 t : Vec Ideal S1x8192x3 .f32) (ix3 (0 : Fin 1) p d) = V m c main_arg1 (ix3 (batchOf t) p d) := by
  obtain ⟨-, -, -, e0, e1, e2, -⟩ := idx_facts t
  unfold iblk
  show V m c main_arg1 (((cfg0.win 1).blk t).view.emb (ix3 (0 : Fin 1) p d)) = V m c main_arg1 (ix3 (batchOf t) p d)
  refine congrArg (V m c main_arg1) (funext fun a => Fin.ext ?_)
  match a with
  | ⟨0, _⟩ => show win0_1.index t (0 : Fin 3) * 1 + 1 * 0 = win0_2.index t (0 : Fin 3); omega
  | ⟨1, _⟩ => show win0_1.index t (1 : Fin 3) * 8192 + 1 * p.val = p.val; omega
  | ⟨2, _⟩ => show win0_1.index t (2 : Fin 3) * 3 + 1 * d.val = d.val; omega

/-- What point `t` writes back is block `t` of `outArr` of the two arrays as the region finds them. -/
theorem flushed_eq (c : Dev nD) (t : Fin cfg0.N) :
    (dats m 0 c).flushed 2 t
      = ((cfg0.win 2).blk t).view.read (Elt Ideal) (outArr (V m c main_arg0) (V m c main_arg1)) := by
  show (cfg0.win 2).cut (grid0.coords t) ((dats m 0 c).after 2 t) = _
  rw [after0_2]
  unfold outsAt0
  funext y
  have hb : ((cfg0.win 2).blk t).view.emb y (0 : Fin 3) = batchOf t :=
    Fin.ext (show win0_2.index t (0 : Fin 3) * 1 + 1 * (y (0 : Fin 3)).val = win0_2.index t (0 : Fin 3) by
      have hy : (y (0 : Fin 3)).val < 1 := (y (0 : Fin 3)).isLt
      omega)
  show out0_A_2 (F := Ideal) c (grid0.coords t) (ms0_0 t) (hs0_0 t) (ms0_1 t) (hs0_1 t) (ms0_2 t) (hs0_2 t) (iblk m c 0 t) (iblk m c 1 t) y
    = outArr (V m c main_arg0) (V m c main_arg1) (((cfg0.win 2).blk t).view.emb y)
  refine (out_apply c (grid0.coords t) (ms0_0 t) (hs0_0 t) (ms0_1 t) (hs0_1 t) (ms0_2 t) (hs0_2 t) (iblk m c 0 t) (iblk m c 1 t) y).trans ?_
  unfold outArr distB
  rw [hb]
  refine congrArg (chamferB _) (funext fun p => funext fun n => ?_)
  exact congrArg₂ sqK (funext fun d => iblk0_apply m c t p d) (funext fun d => iblk1_apply m c t n d)

/-- An index of the output array is in point `t`'s block iff each coordinate is in the block's range. -/
theorem mem_blk (t : Fin cfg0.N) (i : S4x1x128.Idx) :
    i ∈ ((cfg0.win 2).blk t).view.set
      ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- The four blocks tile the output array. -/
theorem cover (i : S4x1x128.Idx) :
    ∃ t : Fin cfg0.N, (cfg0.win 2).flush t = true ∧ i ∈ ((cfg0.win 2).blk t).view.set := by
  obtain ⟨t, ht⟩ := idx_onto (i 0)
  obtain ⟨-, -, -, -, -, -, -, e1, e2⟩ := idx_facts t
  refine ⟨t, flush0_2 t, ?_⟩
  rw [mem_blk]
  intro a
  have h1 : (i 1).val < 1 := (i 1).isLt
  have h2 : (i 2).val < 128 := (i 2).isLt
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- The output array after the run. -/
theorem final (c : Dev nD) :
    (dats m 0 c).arrAt 2 cfg0.N = outArr (m ((c : Thread nD τ).loc main_arg0)) (m ((c : Thread nD τ).loc main_arg1)) :=
  (dats m 0 c).arrAt_eq_of_cover 2 (outArr (V m c main_arg0) (V m c main_arg1)) (fun t _ => flushed_eq m c t) cover

/-- Lane `0` of batch `b` of the output array, as the lines after the region take it. -/
theorem lane0 (X Y : S4x8192x3.Idx → EReal) (h1 : S4x1x128.Slices ![0, 0, 0] S4x1x1) (h2 : S4x1x1.ShapeCasts S4) (b : Fin 4) :
    shapeCast S4 (extractStridedSlice S4x1x1 ![0, 0, 0] (outArr X Y) h1) h2 (ix1 b)
      = chamferB (Ideal.ofBits .f32 0x46000000#32) (fun p n => sqK (cloud X b p) (cloud Y b n)) := by
  rw [shapeCast_apply _ h2 (ix1 b) (ix3 b (0 : Fin 1) (0 : Fin 1)) (by
    rw [Shape.rowMajor_val_three, Shape.rowMajor_val_one]
    show (b.val * 1 + 0) * 1 + 0 = b.val
    omega)]
  rw [extractStridedSlice_apply ![0, 0, 0] _ h1 (ix3 b (0 : Fin 1) (0 : Fin 1)) (ix3 b (0 : Fin 1) (0 : Fin 128)) (fun a => by
    match a with
    | ⟨0, _⟩ => exact (Nat.zero_add _).symm
    | ⟨1, _⟩ => rfl
    | ⟨2, _⟩ => rfl)]
  rfl

/-- The lines after the region: lane 0 of each batch, summed from zero, divided by `4.0`. -/
theorem tail_eq (c : Dev nD) :
    Pipeline.afterTail₀ cfgs (dats m) 0 (V0 m) [hostOps1] c main_v4
      = fun _ => result (Ideal.ofBits .f32 0x46000000#32) (Ideal.ofBits .f32 0x40800000#32) sqK
          (cloud (m ((c : Thread nD τ).loc main_arg0))) (cloud (m ((c : Thread nD τ).loc main_arg1))) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v0)
      = outArr (m ((c : Thread nD τ).loc main_arg0)) (m ((c : Thread nD τ).loc main_arg1)) :=
    (Pipeline.withArrays_arr spec0 launch0.win.arr_inj c _ _ 2).trans (final m c)
  rw [hw]
  funext j
  simp only [Host.divf, Host.reduceAdd, Ideal.hostDivf_def, Ideal.hostReduceAdd_def]
  rw [Ideal.hostReduceAdd_total reducesTo_S4_S_d0 (fun b => b.elim0)]
  have hs : ∑ i : S4.Idx, shapeCast S4 (extractStridedSlice S4x1x1 ![0, 0, 0]
        (outArr (m ((c : Thread nD τ).loc main_arg0)) (m ((c : Thread nD τ).loc main_arg1))) slices_S4x1x128_S4x1x1_0_0_0) shapeCasts_S4x1x1_S4 i
      = ∑ b : Fin 4, chamferB (Ideal.ofBits .f32 0x46000000#32)
          (fun p n => sqK (cloud (m ((c : Thread nD τ).loc main_arg0)) b p) (cloud (m ((c : Thread nD τ).loc main_arg1)) b n)) :=
    Fintype.sum_equiv idxEquiv1 _ _ (fun i => by
      show shapeCast S4 _ _ i = chamferB _ (fun p n => sqK (cloud _ (i 0) p) (cloud _ (i 0) n))
      conv_lhs => rw [eq_ix1 i]
      exact lane0 _ _ _ _ (i 0))
  show Ideal.div (Ideal.ofBits .f32 0x00000000#32 + ∑ i : S4.Idx, shapeCast S4 _ _ i) (Ideal.ofBits .f32 0x40800000#32) = _
  rw [hs, Cert.Consts.ofBits_zero, zero_add]
  rfl

/-- THE KERNEL'S RUN, read: every weakly fair execution ends with the result at the mean over the batches of
    their Chamfer distances, by the direct squared distance, and the arguments unchanged. -/
theorem run : θ_run defs (onTc (τ := τ) (main (F := Ideal))) ⟨m, fun _ => 0, ρ⟩ fun r => ∀ c : Dev nD,
      r.2.mem ((c : Thread nD τ).loc main_v4)
        = (fun _ => result (Ideal.ofBits .f32 0x46000000#32) (Ideal.ofBits .f32 0x40800000#32) sqK
            (cloud (m ((c : Thread nD τ).loc main_arg0))) (cloud (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KArray

end
-- ==== Proof.RefValue.lean ====
/-
  The reference program's result, read at the ideal instance, is the Chamfer distance of the specification
  with the expanded squared distance.

  Stage by stage: the squared norms of the points are sums of three squares from zero; the cross term is the
  inner product of two points; the pairwise squared distance is the two norms added minus twice the inner
  product, which is the expanded squared distance of the two points. The minimum of a row (over the second
  cloud) and of a column (over the first cloud), from the top element, are folds of the minimum over 8192
  coordinates; their sums from zero, each divided by the same word, are added per batch, and the four batches
  are summed from zero and divided by the last word.
-/
import proofs.«149682_j8117488190299_1_alg».proof.Proof.Gen.ReferenceIdeal.Read
import proofs.«149682_j8117488190299_1_alg».proof.Proof.Chamfer
import proofs.«149682_j8117488190299_1_alg».proof.Proof.Consts
import Idealize.ShloMosaic.Lib.ValueIdx
import Idealize.ShloMosaic.PureOps.Ideal.Laws
import Idealize.ShloMosaic.PureOps.Reduce
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read

/-- A point cloud: four batches of 8192 points in 3-space, as an array of extended reals. -/
abbrev Cloud : Type := (⟨S4x8192x3, .f32⟩ : BufTy).Contents (Elt Ideal)

/-! ## The pairwise squared distance -/

/-- The squared distance the reference computes between point m of the first cloud and point n of the
    second, in batch b, is the expanded form: the two squared norms, each summed from zero, minus twice the
    inner product. -/
theorem dist_apply (x0 x1 : Cloud) (b : Fin 4) (m n : Fin 8192) :
    val_main_v12 (F := Ideal) x0 x1 (ix3 b m n)
      = Cert.Chamfer.sqR (fun d => x0 (ix3 b m d)) (fun d => x1 (ix3 b n d)) := by
  have e1 : ∀ k : Fin 3, idx_main_v1 (idx_main_v5 (idx_main_v7 (ix3 b m n))) k = ix3 b m k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b m n))) k = ix3 b n k := fun k =>
    funext fun a => Fin.ext (by match a with | ⟨0, _⟩ => rfl | ⟨1, _⟩ => rfl | ⟨2, _⟩ => rfl)
  have el : ∀ k : Fin 3, lidx_main_v4 (ix3 b m n) k = ix3 b m k := fun k =>
    funext fun a => Fin.ext (by match a with | ⟨0, _⟩ => rfl | ⟨1, _⟩ => rfl | ⟨2, _⟩ => rfl)
  have er : ∀ k : Fin 3, ridx_main_v4 (ix3 b m n) k = ix3 b n k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_cst_apply, val_main_cst_0_apply]
  simp only [val_main_v0_apply, val_main_v2_apply, e1, e3, el, er, Ideal.subf_def, Ideal.addf_def, Ideal.mulf_def,
    Ideal.ofBits_def, Cert.Consts.ofBits_zero, Cert.Consts.ofBits_two]
  rfl

/-! ## The two minima -/

/-- The index over (b, m) with coordinate k put back on the last axis is (b, m, k). -/
theorem lift_last (h : S4x8192x8192.Reduces [2] S4x8192) (b : Fin 4) (m : Fin 8192) (k : Fin 8192) :
    h.lift (ix2 b m) k = ix3 b m k := by
  funext c; apply Fin.ext
  match c with
  | ⟨0, _⟩ => rfl
  | ⟨1, _⟩ => rfl
  | ⟨2, _⟩ => rfl

/-- The index over (b, n) with coordinate k put back on the middle axis is (b, k, n). -/
theorem lift_mid (h : S4x8192x8192.Reduces [1] S4x8192) (b : Fin 4) (n : Fin 8192) (k : Fin 8192) :
    h.lift (ix2 b n) k = ix3 b k n := by
  funext c; apply Fin.ext
  match c with
  | ⟨0, _⟩ => rfl
  | ⟨1, _⟩ => rfl
  | ⟨2, _⟩ => rfl

/-- For point m of the first cloud, the minimum over the second cloud of the squared distance: the fold of the
    minimum from the top element over the row. -/
theorem rowMin_apply (x0 x1 : Cloud) (b : Fin 4) (m : Fin 8192) :
    val_main_v13 (F := Ideal) x0 x1 (ix2 b m)
      = Cert.Chamfer.minOver (fun n => Cert.Chamfer.sqR (fun d => x0 (ix3 b m d)) (fun d => x1 (ix3 b n d))) := by
  have h : S4x8192x8192.Reduces [2] S4x8192 := by decide
  unfold val_main_v13
  rw [Host.reduce_eq_fold_single FloatOps.minimumf _ _ reducesTo_S4x8192x8192_S4x8192_d2 h h_S_]
  have hf : (val_main_v12 (F := Ideal) x0 x1 ∘ h.lift (ix2 b m))
      = fun n : Fin 8192 => Cert.Chamfer.sqR (fun d => x0 (ix3 b m d)) (fun d => x1 (ix3 b n d)) :=
    funext fun k => (congrArg (val_main_v12 (F := Ideal) x0 x1) (lift_last h b m k)).trans (dist_apply x0 x1 b m k)
  rw [val_main_cst_2_apply, Ideal.ofBits_def, Cert.Consts.ofBits_top]
  unfold Cert.Chamfer.minOver
  exact congrArg (fun f => Finset.fold min ⊤ f (Finset.univ : Finset (Fin 8192))) hf

/-- For point n of the second cloud, the minimum over the first cloud of the squared distance: the fold of the
    minimum from the top element over the column. -/
theorem colMin_apply (x0 x1 : Cloud) (b : Fin 4) (n : Fin 8192) :
    val_main_v17 (F := Ideal) x0 x1 (ix2 b n)
      = Cert.Chamfer.minOver (fun m => Cert.Chamfer.sqR (fun d => x0 (ix3 b m d)) (fun d => x1 (ix3 b n d))) := by
  have h : S4x8192x8192.Reduces [1] S4x8192 := by decide
  unfold val_main_v17
  rw [Host.reduce_eq_fold_single FloatOps.minimumf _ _ reducesTo_S4x8192x8192_S4x8192_d1 h h_S_]
  have hf : (val_main_v12 (F := Ideal) x0 x1 ∘ h.lift (ix2 b n))
      = fun m : Fin 8192 => Cert.Chamfer.sqR (fun d => x0 (ix3 b m d)) (fun d => x1 (ix3 b n d)) :=
    funext fun k => (congrArg (val_main_v12 (F := Ideal) x0 x1) (lift_mid h b n k)).trans (dist_apply x0 x1 b k n)
  rw [val_main_cst_5_apply, Ideal.ofBits_def, Cert.Consts.ofBits_top]
  unfold Cert.Chamfer.minOver
  exact congrArg (fun f => Finset.fold min ⊤ f (Finset.univ : Finset (Fin 8192))) hf

/-! ## One batch -/

/-- The squared distances of batch b, as the specification's matrix. -/
abbrev sqDist (x0 x1 : Cloud) (b : Fin 4) : Fin 8192 → Fin 8192 → EReal :=
  fun m n => Cert.Chamfer.sqR (fun d => x0 (ix3 b m d)) (fun d => x1 (ix3 b n d))

/-- The row minima of batch b summed from zero and divided by the first word. -/
theorem rowMean_apply (x0 x1 : Cloud) (b : Fin 4) :
    val_main_v16 (F := Ideal) x0 x1 (ix1 b)
      = Ideal.div (∑ m, Cert.Chamfer.minOver (sqDist x0 x1 b m)) (Ideal.ofBits .f32 0x46000000#32) := by
  have e : ∀ k : Fin 8192, idx_main_v14 (ix1 b) k = ix2 b k := fun k =>
    funext fun a => Fin.ext (by match a with | ⟨0, _⟩ => rfl | ⟨1, _⟩ => rfl)
  rw [val_main_v16_apply, val_main_v15_apply, val_main_cst_4_apply, val_main_v14_apply, val_main_cst_3_apply]
  simp only [e, rowMin_apply, Ideal.hostDivf_def, Ideal.ofBits_def, Cert.Consts.ofBits_zero, zero_add]

/-- The column minima of batch b summed from zero and divided by the same word. -/
theorem colMean_apply (x0 x1 : Cloud) (b : Fin 4) :
    val_main_v20 (F := Ideal) x0 x1 (ix1 b)
      = Ideal.div (∑ n, Cert.Chamfer.minOver (fun m => sqDist x0 x1 b m n)) (Ideal.ofBits .f32 0x46000000#32) := by
  have e : ∀ k : Fin 8192, idx_main_v18 (ix1 b) k = ix2 b k := fun k =>
    funext fun a => Fin.ext (by match a with | ⟨0, _⟩ => rfl | ⟨1, _⟩ => rfl)
  rw [val_main_v20_apply, val_main_v19_apply, val_main_cst_7_apply, val_main_v18_apply, val_main_cst_6_apply]
  simp only [e, colMin_apply, Ideal.hostDivf_def, Ideal.ofBits_def, Cert.Consts.ofBits_zero, zero_add]

/-- The two means of batch b added: the Chamfer distance of that batch. -/
theorem batch_apply (x0 x1 : Cloud) (b : Fin 4) :
    val_main_v21 (F := Ideal) x0 x1 (ix1 b)
      = Cert.Chamfer.chamferB (Ideal.ofBits .f32 0x46000000#32) (sqDist x0 x1 b) := by
  rw [val_main_v21_apply, rowMean_apply, colMean_apply]
  rfl

/-! ## The mean over the batches -/

/-- A batch number as an index of the rank-one array of the four batches. -/
def batchEquiv : Fin 4 ≃ S4.Idx where
  toFun := fun b => ix1 b
  invFun := fun j => j 0
  left_inv := fun _ => rfl
  right_inv := fun j => (eq_ix1 j).symm

/-- The result: the four batches' distances summed from zero and divided by the last word. -/
theorem ref_result (x0 x1 : (⟨S4x8192x3, .f32⟩ : BufTy).Contents (Elt Ideal)) :
    val_main_v23 (F := Ideal) x0 x1
      = fun _ => Cert.Chamfer.result (Ideal.ofBits .f32 0x46000000#32) (Ideal.ofBits .f32 0x40800000#32) Cert.Chamfer.sqR
          (fun b m d => x0 (ix3 b m d)) (fun b n d => x1 (ix3 b n d)) := by
  funext i
  rw [val_main_v23_apply, val_main_cst_9_apply, val_main_v22_apply, val_main_cst_8_apply,
    ← Equiv.sum_comp batchEquiv (val_main_v21 (F := Ideal) x0 x1)]
  have eb : ∀ b : Fin 4, val_main_v21 (F := Ideal) x0 x1 (batchEquiv b)
      = Cert.Chamfer.chamferB (Ideal.ofBits .f32 0x46000000#32) (sqDist x0 x1 b) := fun b => batch_apply x0 x1 b
  simp only [eb, Ideal.hostDivf_def, Ideal.ofBits_def, Cert.Consts.ofBits_zero, zero_add]
  rfl

end Cert.ReferenceIdeal.RefValue

end
-- ==== Proof.Finite.lean ====
/-
  From the precondition "every float input is finite" to "every entry of both inputs is a real number".

  The precondition compares |x| < +∞ at every entry of each input, folds each array of comparisons by "and" over all
  three axes starting from true, and takes the "and" of the two folds. If the result is true, both folds are true, so
  every comparison is true. At the extended reals |x| is max x (-x); if that is strictly below ⊤ then x is neither ⊤
  nor ⊥, and so x is a real number.
-/
import proofs.«149682_j8117488190299_1_alg».proof.Pre_finite_inputs
import Idealize.ShloMosaic.PureOps.Ideal
import Idealize.ShloMosaic.Lib.ReduceAll
import Idealize.ShloMosaic.Lib.ValueIdx

namespace Cert.Finite

open Idealize.ShloMosaic

/-- The rank-0 shape has exactly one index: any two indices are functions out of the empty set of axes. -/
instance : Subsingleton Cert.Pre_finite_inputs.S_.Idx := ⟨fun a b => funext fun d => d.elim0⟩

/-- The f32 pattern with all exponent bits set and a zero fraction is +∞. -/
theorem inf_bits : Ideal.ofBits .f32 0x7F800000#32 = ⊤ := by simp [Ideal.ofBits, Ideal.ieee]

/-- An extended real whose absolute value max x (-x) lies strictly below ⊤ is a real number: at ⊤ the maximum is ⊤, at
    ⊥ the negation is ⊤, and neither is below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ came out true then x is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max (x : EReal) (-(x : EReal)) < Ideal.ofBits .f32 0x7F800000#32)) = 1#1 := h
  rw [inf_bits] at h'
  refine real_of_abs_lt_top x ?_
  by_contra hn
  simp [hn] at h'

/-- Every entry of both inputs is a real number when the precondition holds. -/
theorem real_of_pre [Cert.Pre_finite_inputs.Facts] (X Y : FVec Ideal Cert.Pre_finite_inputs.S4x8192x3 .f32)
    (h : Cert.Pre_finite_inputs.fn (F := Ideal) X Y = fun _ => 1#1) :
    (∀ i, ∃ r : ℝ, X i = (r : EReal)) ∧ (∀ i, ∃ r : ℝ, Y i = (r : EReal)) := by
  have h0 := congrFun h ValueIdx.ix0
  dsimp only [Cert.Pre_finite_inputs.fn] at h0
  -- the last operation is the "and" of the two folds: both are true
  obtain ⟨hx, hy⟩ := IntOp.andi_eq_one.1 h0
  -- a fold by "and" over all axes that is true had a true comparison at every entry
  exact ⟨fun i => real_of_cmp (X i) (Host.reduce_andi_all _ _ _ _ _ hx i),
    fun i => real_of_cmp (Y i) (Host.reduce_andi_all _ _ _ _ _ hy i)⟩

end Cert.Finite
-- ==== Proof.lean ====
/-
  The proof of `Cert.Claim`: the Chamfer distance between two batches of point clouds, computed by a kernel
  that builds each `[128, 8192]` tile of direct squared distances `Σ_d (p_d - q_d)²` and accumulates row and
  column minima tile by tile, against a reference that expands the square, `‖p‖² + ‖q‖² - 2 p·q`, and takes
  the minima of the whole `[8192, 8192]` table.

  On the extended reals both programs end at one number: the mean over the four batches of
      (Σ_m min_n D m n) / 8192 + (Σ_n min_m D m n) / 8192
  (Proof/Chamfer.lean's `result`), the kernel with the direct `D` (Proof/KArray.lean's `run`, over the
  loop's carried value read in Proof/KTrip.lean, Proof/KPay.lean and Proof/KLoop.lean), the reference with the
  expanded one (Proof/RefValue.lean). The two squared distances agree on real points by the binomial formula;
  that every input entry is real is what the precondition says (Proof/Finite.lean). Sums and minima over a
  partition into tiles need no finiteness. The three frames are the programs' runs with the values dropped;
  the idealization rewrote nothing, so `preserves` is trivial.
-/
import proofs.«149682_j8117488190299_1_alg».proof.Defs
import proofs.«149682_j8117488190299_1_alg».proof.Proof.Gen.Kernel
import proofs.«149682_j8117488190299_1_alg».proof.Proof.Gen.Kernel.Skeleton
import proofs.«149682_j8117488190299_1_alg».proof.Proof.Gen.Kernel.Loops
import proofs.«149682_j8117488190299_1_alg».proof.Proof.Gen.Kernel.Launch
import proofs.«149682_j8117488190299_1_alg».proof.Proof.Gen.Kernel.Points
import proofs.«149682_j8117488190299_1_alg».proof.Proof.Gen.Kernel.Frame
import proofs.«149682_j8117488190299_1_alg».proof.Proof.Gen.KernelIdeal
import proofs.«149682_j8117488190299_1_alg».proof.Proof.Gen.KernelIdeal.Skeleton
import proofs.«149682_j8117488190299_1_alg».proof.Proof.Gen.KernelIdeal.Loops
import proofs.«149682_j8117488190299_1_alg».proof.Proof.Gen.KernelIdeal.Launch
import proofs.«149682_j8117488190299_1_alg».proof.Proof.Gen.KernelIdeal.Points
import proofs.«149682_j8117488190299_1_alg».proof.Proof.Gen.KernelIdeal.Frame
import proofs.«149682_j8117488190299_1_alg».proof.Proof.Gen.ReferenceIdeal
import proofs.«149682_j8117488190299_1_alg».proof.Proof.Gen.Pre_finite_inputs
import proofs.«149682_j8117488190299_1_alg».proof.Proof.Gen.ReferenceIdeal.Run
import proofs.«149682_j8117488190299_1_alg».proof.Proof.Gen.ReferenceIdeal.Read
import proofs.«149682_j8117488190299_1_alg».proof.Proof.KArray
import proofs.«149682_j8117488190299_1_alg».proof.Proof.RefValue
import proofs.«149682_j8117488190299_1_alg».proof.Proof.Finite
import Idealize.ShloMosaic.Adequacy
import Idealize.ShloMosaic.Init

noncomputable section

namespace Cert.Proof

open Idealize.ShloMosaic Idealize.ShloMosaic.TcCoe Idealize.SL.Sem Cert.Chamfer

/-- The kernel as printed runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the two clouds, every entry real, both programs end at the same mean of the
    batches' Chamfer distances: the kernel's by the direct squared distance, the reference's by the expanded
    one, equal on real points. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KArray.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := @Cert.Finite.real_of_pre Cert.Pre_finite_inputs.Gen.facts _ _ (hpre c)
  rw [Cert.ReferenceIdeal.Read.val_main_v23_eq, Cert.ReferenceIdeal.RefValue.ref_result, (hagree c).1, (hagree c).2]
  funext _
  exact (result_sqK_eq_sqR _ _ _ _ (fun b p d => hX _) (fun b n d => hY _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
